-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x65 : Shape := ⟨3, ![32, 2048, 65]⟩
abbrev S64x65 : Shape := ⟨2, ![64, 65]⟩
abbrev S65x65 : Shape := ⟨2, ![65, 65]⟩
abbrev S_ : Shape := ⟨0, ![]⟩

class Facts : Prop where
  bcast_S_S32x2048x65 : S_.BroadcastsInDim S32x2048x65 (![] : Fin 0 → Fin S32x2048x65.rank)
  reducesTo_S32x2048x65_S_d0_1_2 : S32x2048x65.ReducesTo [0, 1, 2] S_
  h_S_ : 0 < S_.numel
  bcast_S_S64x65 : S_.BroadcastsInDim S64x65 (![] : Fin 0 → Fin S64x65.rank)
  reducesTo_S64x65_S_d0_1 : S64x65.ReducesTo [0, 1] S_
  bcast_S_S65x65 : S_.BroadcastsInDim S65x65 (![] : Fin 0 → Fin S65x65.rank)
  reducesTo_S65x65_S_d0_1 : S65x65.ReducesTo [0, 1] S_

variable [Facts]

def fn_part1 {F : FTy → Type} [FloatOps F] (main_v13 : IVec S_ 1) (main_v16 : IVec S65x65 1) : IVec S_ 1 :=
  let main_c_5 : IVec S_ 1 := constantI S_ 1 1#1
  let main_v17 : IVec S_ 1 := (fun x v => Host.reduce IntOp.andi x v reducesTo_S65x65_S_d0_1 h_S_) main_v16 main_c_5
  let main_v18 : IVec S_ 1 := andi main_v13 main_v17
  main_v18

def fn {F : FTy → Type} [FloatOps F] (main_arg0 : FVec F S32x2048x65 .f32) (main_arg1 : FVec F S64x65 .f32) (main_arg2 : FVec F S64x65 .f32) (main_arg3 : FVec F S65x65 .f32) : IVec S_ 1 :=
  let main_v0 : FVec F S32x2048x65 .f32 := Host.absf main_arg0
  let main_cst : FVec F S_ .f32 := constant S_ .f32 0x7F800000#32
  let main_v1 : FVec F S32x2048x65 .f32 := broadcastInDim S32x2048x65 ![] bcast_S_S32x2048x65 main_cst
  let main_v2 : IVec S32x2048x65 1 := cmpf .olt main_v0 main_v1
  let main_c : IVec S_ 1 := constantI S_ 1 1#1
  let main_v3 : IVec S_ 1 := (fun x v => Host.reduce IntOp.andi x v reducesTo_S32x2048x65_S_d0_1_2 h_S_) main_v2 main_c
  let main_v4 : FVec F S64x65 .f32 := Host.absf main_arg1
  let main_cst_0 : FVec F S_ .f32 := constant S_ .f32 0x7F800000#32
  let main_v5 : FVec F S64x65 .f32 := broadcastInDim S64x65 ![] bcast_S_S64x65 main_cst_0
  let main_v6 : IVec S64x65 1 := cmpf .olt main_v4 main_v5
  let main_c_1 : IVec S_ 1 := constantI S_ 1 1#1
  let main_v7 : IVec S_ 1 := (fun x v => Host.reduce IntOp.andi x v reducesTo_S64x65_S_d0_1 h_S_) main_v6 main_c_1
  let main_v8 : IVec S_ 1 := andi main_v3 main_v7
  let main_v9 : FVec F S64x65 .f32 := Host.absf main_arg2
  let main_cst_2 : FVec F S_ .f32 := constant S_ .f32 0x7F800000#32
  let main_v10 : FVec F S64x65 .f32 := broadcastInDim S64x65 ![] bcast_S_S64x65 main_cst_2
  let main_v11 : IVec S64x65 1 := cmpf .olt main_v9 main_v10
  let main_c_3 : IVec S_ 1 := constantI S_ 1 1#1
  let main_v12 : IVec S_ 1 := (fun x v => Host.reduce IntOp.andi x v reducesTo_S64x65_S_d0_1 h_S_) main_v11 main_c_3
  let main_v13 : IVec S_ 1 := andi main_v8 main_v12
  let main_v14 : FVec F S65x65 .f32 := Host.absf main_arg3
  let main_cst_4 : FVec F S_ .f32 := constant S_ .f32 0x7F800000#32
  let main_v15 : FVec F S65x65 .f32 := broadcastInDim S65x65 ![] bcast_S_S65x65 main_cst_4
  let main_v16 : IVec S65x65 1 := cmpf .olt main_v14 main_v15
  fn_part1 (F := F) main_v13 main_v16
-- ==== Kernel.lean ====
abbrev S32x2048x65 : Shape := ⟨3, ![32, 2048, 65]⟩
abbrev S64x65 : Shape := ⟨2, ![64, 65]⟩
abbrev S65x65 : Shape := ⟨2, ![65, 65]⟩
abbrev S1x2048x65 : Shape := ⟨3, ![1, 2048, 65]⟩
abbrev S2048x65 : Shape := ⟨2, ![2048, 65]⟩
abbrev S2048x64 : Shape := ⟨2, ![2048, 64]⟩

abbrev nBuf : Space → Nat
  | .hbm => 5
  | .vmem => 7
  | .smem => 0
  | _ => 0

abbrev bufTy : (tb : Table) → Fin (tcTables nBuf tb) → BufTy
  | .hbm, ⟨0, _⟩ => ⟨S32x2048x65, .f32⟩
  | .hbm, ⟨1, _⟩ => ⟨S64x65, .f32⟩
  | .hbm, ⟨2, _⟩ => ⟨S64x65, .f32⟩
  | .hbm, ⟨3, _⟩ => ⟨S65x65, .f32⟩
  | .hbm, ⟨4, _⟩ => ⟨S32x2048x65, .f32⟩
  | .local _ .vmem, ⟨0, _⟩ => ⟨S1x2048x65, .f32⟩
  | .local _ .vmem, ⟨1, _⟩ => ⟨S1x2048x65, .f32⟩
  | .local _ .vmem, ⟨2, _⟩ => ⟨S64x65, .f32⟩
  | .local _ .vmem, ⟨3, _⟩ => ⟨S64x65, .f32⟩
  | .local _ .vmem, ⟨4, _⟩ => ⟨S65x65, .f32⟩
  | .local _ .vmem, ⟨5, _⟩ => ⟨S1x2048x65, .f32⟩
  | .local _ .vmem, ⟨6, _⟩ => ⟨S1x2048x65, .f32⟩
  | _, _ => ⟨S32x2048x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x65 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x65 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S65x65 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x65 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x2048x65_S1x2048x65_0_0_0 : ∀ a, (![0, 0, 0] : Fin 3 → Nat) a + S1x2048x65.size a ≤ S1x2048x65.size a
  h_S1x2048x65 : 0 < S1x2048x65.numel
  shapeCasts_S1x2048x65_S2048x65 : S1x2048x65.ShapeCasts S2048x65
  bitsLt_bf16_f32 : FTy.bits .bf16 < FTy.bits .f32
  inb_S64x65_S64x65_0_0 : ∀ a, (![0, 0] : Fin 2 → Nat) a + S64x65.size a ≤ S64x65.size a
  h_S64x65 : 0 < S64x65.numel
  inb_S65x65_S65x65_0_0 : ∀ a, (![0, 0] : Fin 2 → Nat) a + S65x65.size a ≤ S65x65.size a
  h_S65x65 : 0 < S65x65.numel
  shapeCasts_S2048x65_S1x2048x65 : S2048x65.ShapeCasts S1x2048x65
  dot_S2048x65_S64x65_S2048x64_1_1_0_0_n_n_wf : DotDims.WF S2048x65 S64x65 S2048x64 [1] [1] [0] [0] [] []
  dot_S2048x65_S65x65_S2048x65_1_1_0_0_n_n_wf : DotDims.WF S2048x65 S65x65 S2048x65 [1] [1] [0] [0] [] []
  dot_S2048x64_S2048x65_S64x65_0_0_1_1_n_n_wf : DotDims.WF S2048x64 S2048x65 S64x65 [0] [0] [1] [1] [] []
  dot_S64x65_S64x65_S65x65_0_0_1_1_n_n_wf : DotDims.WF S64x65 S64x65 S65x65 [0] [0] [1] [1] [] []
  dot_S2048x65_S65x65_S2048x65_1_0_0_1_n_n_wf : DotDims.WF S2048x65 S65x65 S2048x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x65.size a ≤ S32x2048x65.size a
  hwx0_0 : ∀ i : grid0.Coords, EltTy.bits .f32 = 32 ∨ (Rect.block (s := S32x2048x65) S1x2048x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x65.size a ≤ S64x65.size a
  hwx0_1 : ∀ i : grid0.Coords, EltTy.bits .f32 = 32 ∨ (Rect.block (s := S64x65) S64x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x65.size a ≤ S64x65.size a
  hwx0_2 : ∀ i : grid0.Coords, EltTy.bits .f32 = 32 ∨ (Rect.block (s := S64x65) S64x65.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S65x65.size a ≤ S65x65.size a
  hwx0_3 : ∀ i : grid0.Coords, EltTy.bits .f32 = 32 ∨ (Rect.block (s := S65x65) S65x65.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x65.size a ≤ S32x2048x65.size a
  hwx0_4 : ∀ i : grid0.Coords, EltTy.bits .f32 = 32 ∨ (Rect.block (s := S32x2048x65) S1x2048x65.size (cc0_transform_4 i) (hinb0_4 i)).WholeWords (EltTy.packing .f32)

variable [Facts₀]

def dot_S2048x65_S64x65_S2048x64_1_1_0_0_n_n : DotDims S2048x65 S64x65 S2048x64 where
  lhsContracting := [1]
  rhsContracting := [1]
  lhsNonContracting := [0]
  rhsNonContracting := [0]
  lhsBatch := []
  rhsBatch := []
  wf := dot_S2048x65_S64x65_S2048x64_1_1_0_0_n_n_wf
def dot_S2048x65_S65x65_S2048x65_1_1_0_0_n_n : DotDims S2048x65 S65x65 S2048x65 where
  lhsContracting := [1]
  rhsContracting := [1]
  lhsNonContracting := [0]
  rhsNonContracting := [0]
  lhsBatch := []
  rhsBatch := []
  wf := dot_S2048x65_S65x65_S2048x65_1_1_0_0_n_n_wf
def dot_S2048x64_S2048x65_S64x65_0_0_1_1_n_n : DotDims S2048x64 S2048x65 S64x65 where
  lhsContracting := [0]
  rhsContracting := [0]
  lhsNonContracting := [1]
  rhsNonContracting := [1]
  lhsBatch := []
  rhsBatch := []
  wf := dot_S2048x64_S2048x65_S64x65_0_0_1_1_n_n_wf
def dot_S64x65_S64x65_S65x65_0_0_1_1_n_n : DotDims S64x65 S64x65 S65x65 where
  lhsContracting := [0]
  rhsContracting := [0]
  lhsNonContracting := [1]
  rhsNonContracting := [1]
  lhsBatch := []
  rhsBatch := []
  wf := dot_S64x65_S64x65_S65x65_0_0_1_1_n_n_wf
def dot_S2048x65_S65x65_S2048x65_1_0_0_1_n_n : DotDims S2048x65 S65x65 S2048x65 where
  lhsContracting := [1]
  rhsContracting := [0]
  lhsNonContracting := [0]
  rhsNonContracting := [1]
  lhsBatch := []
  rhsBatch := []
  wf := dot_S2048x65_S65x65_S2048x65_1_0_0_1_n_n_wf

abbrev win0_0 : Pipeline.Window sig grid0 :=
  Pipeline.Window.ofSpec (Memref.whole main_arg0) S1x2048x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x65.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x65.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S65x65.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x65.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x65 : Shape := ⟨3, ![32, 2048, 65]⟩
abbrev S64x65 : Shape := ⟨2, ![64, 65]⟩
abbrev S65x65 : Shape := ⟨2, ![65, 65]⟩
abbrev S32x2048x64 : Shape := ⟨3, ![32, 2048, 64]⟩
abbrev S32x2048x2048 : Shape := ⟨3, ![32, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x65, .f32⟩
  | .hbm, ⟨1, _⟩ => ⟨S64x65, .f32⟩
  | .hbm, ⟨2, _⟩ => ⟨S64x65, .f32⟩
  | .hbm, ⟨3, _⟩ => ⟨S65x65, .f32⟩
  | .hbm, ⟨4, _⟩ => ⟨S32x2048x64, .f32⟩
  | .hbm, ⟨5, _⟩ => ⟨S32x2048x64, .f32⟩
  | .hbm, ⟨6, _⟩ => ⟨S32x2048x65, .f32⟩
  | .hbm, ⟨7, _⟩ => ⟨S32x2048x2048, .f32⟩
  | .hbm, ⟨8, _⟩ => ⟨S32x2048x65, .f32⟩
  | _, _ => ⟨S32x2048x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  dot_S32x2048x65_S64x65_S32x2048x64_2_1_01_0_n_n_wf : DotDims.WF S32x2048x65 S64x65 S32x2048x64 [2] [1] [0, 1] [0] [] []
  dot_S32x2048x65_S65x65_S32x2048x65_2_1_01_0_n_n_wf : DotDims.WF S32x2048x65 S65x65 S32x2048x65 [2] [1] [0, 1] [0] [] []
  dot_S32x2048x64_S32x2048x64_S32x2048x2048_2_2_1_1_0_0_wf : DotDims.WF S32x2048x64 S32x2048x64 S32x2048x2048 [2] [2] [1] [1] [0] [0]
  dot_S32x2048x2048_S32x2048x65_S32x2048x65_2_1_1_2_0_0_wf : DotDims.WF S32x2048x2048 S32x2048x65 S32x2048x65 [2] [1] [1] [2] [0] [0]

variable [Facts₀]

def dot_S32x2048x65_S64x65_S32x2048x64_2_1_01_0_n_n : DotDims S32x2048x65 S64x65 S32x2048x64 where
  lhsContracting := [2]
  rhsContracting := [1]
  lhsNonContracting := [0, 1]
  rhsNonContracting := [0]
  lhsBatch := []
  rhsBatch := []
  wf := dot_S32x2048x65_S64x65_S32x2048x64_2_1_01_0_n_n_wf
def dot_S32x2048x65_S65x65_S32x2048x65_2_1_01_0_n_n : DotDims S32x2048x65 S65x65 S32x2048x65 where
  lhsContracting := [2]
  rhsContracting := [1]
  lhsNonContracting := [0, 1]
  rhsNonContracting := [0]
  lhsBatch := []
  rhsBatch := []
  wf := dot_S32x2048x65_S65x65_S32x2048x65_2_1_01_0_n_n_wf
def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x65_S32x2048x65_2_1_1_2_0_0 : DotDims S32x2048x2048 S32x2048x65 S32x2048x65 where
  lhsContracting := [2]
  rhsContracting := [1]
  lhsNonContracting := [1]
  rhsNonContracting := [2]
  lhsBatch := [0]
  rhsBatch := [0]
  wf := dot_S32x2048x2048_S32x2048x65_S32x2048x65_2_1_1_2_0_0_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.LibDotForms.lean ====
/-
  Two more two-dimensional matrix products read at an index, beside the plain M×K by K×N one.

  * The right operand transposed: M×K by N×K, both operands contracted on their axis 1, no batch axes. The
    accelerator's matmul into a zero accumulator is, at the extended reals, at (p, q) the sum over the contracted
    coordinate κ of l (p, κ) * r (q, κ).
  * The left operand transposed: K×M by K×N, both operands contracted on their axis 0, no batch axes: at (p, q) the
    sum over κ of l (κ, p) * r (κ, q).
-/
import Idealize.ShloMosaic.PureOps.Ideal.Laws
import Idealize.ShloMosaic.Lib.ValueIdx

noncomputable section

open scoped BigOperators

namespace Idealize.ShloMosaic.DotForms
open Idealize.ShloMosaic Idealize.ShloMosaic.ValueIdx

/-! ## M×K by N×K: A · Bᵀ -/

/-- Both operands contracted on axis 1, their axes 0 the result's rows and columns, no batch axes. -/
structure IsRhsT {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section RhsT
variable {M K N : Nat} (d : DotDims ⟨2, ![M, K]⟩ ⟨2, ![N, K]⟩ ⟨2, ![M, N]⟩) (hd : IsRhsT d)
include hd

/-- Exactly one axis is contracted. -/
theorem rhsT_contr_rank : d.contr.rank = 1 := by
  rw [d.rank_contr, hd.lc]; rfl

/-- Its extent is the common K. -/
theorem rhsT_contr_size : d.contr.size ⟨0, by rw [rhsT_contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row is the result's row. -/
theorem rhsT_lhs0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column is the contracted coordinate. -/
theorem rhsT_lhs1 (j : (⟨2, ![M, N]⟩ : Shape).Idx) (k : d.contr.Idx) :
    (d.lhsIdx j k 1).val = (k ⟨0, by rw [rhsT_contr_rank d hd]; exact Nat.one_pos⟩).val :=
  d.lhsIdx_val_of_single hd.lc j k

/-- The right operand's row is the result's column. -/
theorem rhsT_rhs0 (j : (⟨2, ![M, N]⟩ : Shape).Idx) (k : d.contr.Idx) : (d.rhsIdx j k 0).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The right operand's column is the contracted coordinate. -/
theorem rhsT_rhs1 (j : (⟨2, ![M, N]⟩ : Shape).Idx) (k : d.contr.Idx) :
    (d.rhsIdx j k 1).val = (k ⟨0, by rw [rhsT_contr_rank d hd]; exact Nat.one_pos⟩).val :=
  d.rhsIdx_val_of_single hd.rc j k

/-- The contraction sum re-indexed by the contracted coordinate: the operands read at (p, κ) and (q, κ). -/
theorem sum_contr_rhsT {φ₁ φ₂ : FTy} (l : FVec Ideal ⟨2, ![M, K]⟩ φ₁) (r : FVec Ideal ⟨2, ![N, K]⟩ φ₂)
    (p : Fin M) (q : Fin N) :
    ∑ k : d.contr.Idx, l (d.lhsIdx (ix2 p q) k) * r (d.rhsIdx (ix2 p q) k) = ∑ κ : Fin K, l (ix2 p κ) * r (ix2 q κ) := by
  refine (Equiv.sum_comp (contrEquiv1 d K (rhsT_contr_rank d hd) (rhsT_contr_size d hd)).symm _).symm.trans ?_
  refine Finset.sum_congr rfl fun κ _ => ?_
  have hl : d.lhsIdx (ix2 p q) ((contrEquiv1 d K (rhsT_contr_rank d hd) (rhsT_contr_size d hd)).symm κ) = ix2 p κ := by
    funext a
    match a with
    | ⟨0, _⟩ => exact Fin.ext (rhsT_lhs0 d hd _ _)
    | ⟨1, _⟩ => exact Fin.ext ((rhsT_lhs1 d hd _ _).trans (contrEquiv1_symm_val d K _ _ κ))
  have hr : d.rhsIdx (ix2 p q) ((contrEquiv1 d K (rhsT_contr_rank d hd) (rhsT_contr_size d hd)).symm κ) = ix2 q κ := by
    funext a
    match a with
    | ⟨0, _⟩ => exact Fin.ext (rhsT_rhs0 d hd _ _)
    | ⟨1, _⟩ => exact Fin.ext ((rhsT_rhs1 d hd _ _).trans (contrEquiv1_symm_val d K _ _ κ))
  rw [hl, hr]

end RhsT

/-- The accelerator's matmul into the zero accumulator, right operand transposed, at (p, q): Σ_κ l (p, κ) * r (q, κ). -/
theorem matmul_zero_rhsT {M K N : Nat} {φ₁ φ₂ : FTy} (d : DotDims ⟨2, ![M, K]⟩ ⟨2, ![N, K]⟩ ⟨2, ![M, N]⟩) (hd : IsRhsT d)
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ κ : Fin K, l (ix2 p κ) * r (ix2 q κ) :=
  (Ideal.matmul_constant_zero_apply d prec l r (ix2 p q)).trans (sum_contr_rhsT d hd l r p q)

/-! ## K×M by K×N: Aᵀ · B -/

/-- Both operands contracted on axis 0, their axes 1 the result's rows and columns, no batch axes. -/
structure IsLhsT {M K N : Nat} (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section LhsT
variable {M K N : Nat} (d : DotDims ⟨2, ![K, M]⟩ ⟨2, ![K, N]⟩ ⟨2, ![M, N]⟩) (hd : IsLhsT d)
include hd

/-- Exactly one axis is contracted. -/
theorem lhsT_contr_rank : d.contr.rank = 1 := by
  rw [d.rank_contr, hd.lc]; rfl

/-- Its extent is the common K. -/
theorem lhsT_contr_size : d.contr.size ⟨0, by rw [lhsT_contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row is the contracted coordinate. -/
theorem lhsT_lhs0 (j : (⟨2, ![M, N]⟩ : Shape).Idx) (k : d.contr.Idx) :
    (d.lhsIdx j k 0).val = (k ⟨0, by rw [lhsT_contr_rank d hd]; exact Nat.one_pos⟩).val :=
  d.lhsIdx_val_of_single hd.lc j k

/-- The left operand's column is the result's row. -/
theorem lhsT_lhs1 (j : (⟨2, ![M, N]⟩ : Shape).Idx) (k : d.contr.Idx) : (d.lhsIdx j k 1).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The right operand's row is the contracted coordinate. -/
theorem lhsT_rhs0 (j : (⟨2, ![M, N]⟩ : Shape).Idx) (k : d.contr.Idx) :
    (d.rhsIdx j k 0).val = (k ⟨0, by rw [lhsT_contr_rank d hd]; exact Nat.one_pos⟩).val :=
  d.rhsIdx_val_of_single hd.rc j k

/-- The right operand's column is the result's column. -/
theorem lhsT_rhs1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The contraction sum re-indexed by the contracted coordinate: the operands read at (κ, p) and (κ, q). -/
theorem sum_contr_lhsT {φ₁ φ₂ : FTy} (l : FVec Ideal ⟨2, ![K, M]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 κ p) * r (ix2 κ q) := by
  refine (Equiv.sum_comp (contrEquiv1 d K (lhsT_contr_rank d hd) (lhsT_contr_size d hd)).symm _).symm.trans ?_
  refine Finset.sum_congr rfl fun κ _ => ?_
  have hl : d.lhsIdx (ix2 p q) ((contrEquiv1 d K (lhsT_contr_rank d hd) (lhsT_contr_size d hd)).symm κ) = ix2 κ p := by
    funext a
    match a with
    | ⟨0, _⟩ => exact Fin.ext ((lhsT_lhs0 d hd _ _).trans (contrEquiv1_symm_val d K _ _ κ))
    | ⟨1, _⟩ => exact Fin.ext (lhsT_lhs1 d hd _ _)
  have hr : d.rhsIdx (ix2 p q) ((contrEquiv1 d K (lhsT_contr_rank d hd) (lhsT_contr_size d hd)).symm κ) = ix2 κ q := by
    funext a
    match a with
    | ⟨0, _⟩ => exact Fin.ext ((lhsT_rhs0 d hd _ _).trans (contrEquiv1_symm_val d K _ _ κ))
    | ⟨1, _⟩ => exact Fin.ext (lhsT_rhs1 d hd _ _)
  rw [hl, hr]

end LhsT

/-- The accelerator's matmul into the zero accumulator, left operand transposed, at (p, q): Σ_κ l (κ, p) * r (κ, q). -/
theorem matmul_zero_lhsT {M K N : Nat} {φ₁ φ₂ : FTy} (d : DotDims ⟨2, ![K, M]⟩ ⟨2, ![K, N]⟩ ⟨2, ![M, N]⟩) (hd : IsLhsT d)
    (prec : Option ContractPrecision) (l : FVec Ideal ⟨2, ![K, M]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 κ p) * r (ix2 κ q) :=
  (Ideal.matmul_constant_zero_apply d prec l r (ix2 p q)).trans (sum_contr_lhsT d hd l r p q)

end Idealize.ShloMosaic.DotForms

end
-- ==== Proof.Payload.lean ====
/-
  What the kernel body stores, read at an index.

  The body loads the batch element's activations X (a [1, 2048, 65] block, its unit axis dropped) and the three
  weights, and chains five matrix products, each into a zero accumulator:
    K = X · Wkᵀ,  V = X · Wvᵀ,  S = Kᵀ · V,  M = Wqᵀ · S,  out = X · M.
  At the extended reals a change of float format is the identity and each product is the sum over its contracted
  coordinate, so the stored block at (0, n, e) is
    Σ_d X[n,d] · Σ_h Wq[h,d] · Σ_m (Σ_d' X[m,d'] · Wk[h,d']) · (Σ_d' X[m,d'] · Wv[e,d']).
-/
import proofs.«180751_j16226386444902_1_alg».proof.Proof.Gen.KernelIdeal.Skeleton
import proofs.«180751_j16226386444902_1_alg».proof.Proof.LibPlainDot
import proofs.«180751_j16226386444902_1_alg».proof.Proof.LibDotForms
import Idealize.ShloMosaic.Lib.ValueLayout

noncomputable section

open scoped BigOperators

namespace Cert.LinAttn

open Cert.KernelIdeal Cert.KernelIdeal.Gen Idealize.ShloMosaic Idealize.ShloMosaic.ValueIdx

/-- The stored block at (0, n, e), from the four loaded blocks. -/
theorem pay_apply (x0 : Vec Ideal S1x2048x65 .f32) (x1 x2 : Vec Ideal S64x65 .f32) (x3 : Vec Ideal S65x65 .f32)
    (n : Fin 2048) (e : Fin 65) :
    k0_pay1 (F := Ideal) x0 x1 x2 x3 (ix3 (0 : Fin 1) n e)
      = ∑ d : Fin 65, x0 (ix3 (0 : Fin 1) n d) * ∑ h : Fin 64, x1 (ix2 h d) *
          ∑ m : Fin 2048, (∑ d' : Fin 65, x0 (ix3 (0 : Fin 1) m d') * x2 (ix2 h d'))
            * (∑ d' : Fin 65, x0 (ix3 (0 : Fin 1) m d') * x3 (ix2 e d')) := by
  unfold k0_pay1
  simp only [shapeCast_ab_1ab_apply, shapeCast_1ab_ab_apply, truncf_apply,
    PlainDot.matmul_zero_plain dot_S2048x65_S65x65_S2048x65_1_0_0_1_n_n ⟨rfl, rfl, rfl, rfl, rfl, rfl⟩,
    DotForms.matmul_zero_lhsT dot_S64x65_S64x65_S65x65_0_0_1_1_n_n ⟨rfl, rfl, rfl, rfl, rfl, rfl⟩,
    DotForms.matmul_zero_lhsT dot_S2048x64_S2048x65_S64x65_0_0_1_1_n_n ⟨rfl, rfl, rfl, rfl, rfl, rfl⟩,
    DotForms.matmul_zero_rhsT dot_S2048x65_S64x65_S2048x64_1_1_0_0_n_n ⟨rfl, rfl, rfl, rfl, rfl, rfl⟩,
    DotForms.matmul_zero_rhsT dot_S2048x65_S65x65_S2048x65_1_1_0_0_n_n ⟨rfl, rfl, rfl, rfl, rfl, rfl⟩]

end Cert.LinAttn

end
-- ==== Proof.SumLaw.lean ====
/-
  Reassociating a chain of three matrix products, entry by entry.

  For real matrices the product (Q Kᵀ) V and the product X (Wqᵀ (Kᵀ V)), with Q = X Wqᵀ, have the same entries: both
  are the triple sum over (d, h, m) of a d · wq h d · K m h · V m. On the extended reals the same identity holds as
  soon as every factor is (the image of) a real number, because a finite sum or product of reals is a real and the
  embedding of the reals commutes with finite sums and with products.
-/
import Mathlib.Data.EReal.Operations
import Mathlib.Algebra.BigOperators.Ring.Finset
import Mathlib.Algebra.BigOperators.Group.Finset.Sigma
import Mathlib.Tactic.Ring

open scoped BigOperators

namespace Cert.LinAttn

/-- The embedding of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: a row a, a matrix wq, a matrix K and a column V. Summing a d · (Σ_h wq h d · (Σ_m K m h · V m))
    over d is summing (Σ_h (Σ_d a d · wq h d) · K m h) · V m over m: both are the sum over all (d, h, m) of the
    four-fold product, by distributivity and exchanging the order of summation. -/
theorem real_reassoc {D H N : ℕ} (a : Fin D → ℝ) (wq : Fin H → Fin D → ℝ) (K : Fin N → Fin H → ℝ) (V : Fin N → ℝ) :
    ∑ d, a d * ∑ h, wq h d * ∑ m, K m h * V m = ∑ m, (∑ h, (∑ d, a d * wq h d) * K m h) * V m := by
  have e1 : ∑ d, a d * ∑ h, wq h d * ∑ m, K m h * V m = ∑ d, ∑ h, ∑ m, a d * wq h d * K m h * V m := by
    refine Finset.sum_congr rfl fun d _ => ?_
    rw [Finset.mul_sum]
    refine Finset.sum_congr rfl fun h _ => ?_
    rw [Finset.mul_sum, Finset.mul_sum]
    refine Finset.sum_congr rfl fun m _ => ?_
    ring
  have e2 : ∑ m, (∑ h, (∑ d, a d * wq h d) * K m h) * V m = ∑ m, ∑ h, ∑ d, a d * wq h d * K m h * V m := by
    refine Finset.sum_congr rfl fun m _ => ?_
    rw [Finset.sum_mul]
    refine Finset.sum_congr rfl fun h _ => ?_
    rw [Finset.sum_mul, Finset.sum_mul]
  rw [e1, e2, Finset.sum_comm]
  refine (Finset.sum_congr rfl fun h _ => Finset.sum_comm).trans ?_
  exact Finset.sum_comm

/-- The same on the extended reals, every factor a real. -/
theorem ereal_reassoc {D H N : ℕ} (a : Fin D → ℝ) (wq : Fin H → Fin D → ℝ) (K : Fin N → Fin H → ℝ) (V : Fin N → ℝ) :
    ∑ d, (a d : EReal) * ∑ h, (wq h d : EReal) * ∑ m, (K m h : EReal) * (V m : EReal)
      = ∑ m, (∑ h, (∑ d, (a d : EReal) * (wq h d : EReal)) * (K m h : EReal)) * (V m : EReal) := by
  simp only [← EReal.coe_mul, ← coe_sum]
  exact congrArg _ (real_reassoc a wq K V)

end Cert.LinAttn
-- ==== Proof.Spec.lean ====
/-
  Linear (non-softmax) attention over f32[32, 2048, 65] with projections Wq, Wk : [64, 65] and Wv : [65, 65],
  written two ways as functions of the four argument arrays, index by index on the extended reals.

  With Q = X Wqᵀ, K = X Wkᵀ, V = X Wvᵀ per batch element b:
    * `scoreFirst` is ((Q Kᵀ) V)[b, n, e] = Σ_m (Σ_h Q[b,n,h] · K[b,m,h]) · V[b,m,e] — the N×N scores are formed first;
    * `stateFirst` is (X (Wqᵀ (Kᵀ V)))[b, n, e] = Σ_d X[b,n,d] · Σ_h Wq[h,d] · Σ_m K[b,m,h] · V[b,m,e] — the H×D state
      Kᵀ V is formed first and the query projection is folded into a D×D matrix.
  When every entry of the four arrays is a real number the two agree (`scoreFirst_eq_stateFirst`): matrix
  multiplication is associative. (At an infinite entry distributivity fails on the extended reals, hence the hypothesis.)
-/
import proofs.«180751_j16226386444902_1_alg».proof.Proof.SumLaw
import Idealize.ShloMosaic.PureOps.Ideal
import Idealize.ShloMosaic.Lib.ValueIdx

noncomputable section

open scoped BigOperators

namespace Cert.LinAttn

open Idealize.ShloMosaic Idealize.ShloMosaic.ValueIdx

/-- The activations' shape [32, 2048, 65], the query / key weights' [64, 65], the value weights' [65, 65]. -/
abbrev SX : Shape := ⟨3, ![32, 2048, 65]⟩
abbrev SQ : Shape := ⟨2, ![64, 65]⟩
abbrev SV : Shape := ⟨2, ![65, 65]⟩

/-- A projection of row n of batch element b by row h of a [64, 65] weight: Σ_d X[b,n,d] · W[h,d] (queries and keys). -/
def proj64 (x : SX.Idx → EReal) (w : SQ.Idx → EReal) (b : Fin 32) (n : Fin 2048) (h : Fin 64) : EReal :=
  ∑ d : Fin 65, x (ix3 b n d) * w (ix2 h d)

/-- The value projection: Σ_d X[b,n,d] · Wv[e,d]. -/
def proj65 (x : SX.Idx → EReal) (w : SV.Idx → EReal) (b : Fin 32) (n : Fin 2048) (e : Fin 65) : EReal :=
  ∑ d : Fin 65, x (ix3 b n d) * w (ix2 e d)

/-- (Q Kᵀ) V, the scores first. -/
def scoreFirst (x : SX.Idx → EReal) (wq wk : SQ.Idx → EReal) (wv : SV.Idx → EReal) : SX.Idx → EReal := fun i =>
  ∑ m : Fin 2048, (∑ h : Fin 64, proj64 x wq (i 0) (i 1) h * proj64 x wk (i 0) m h) * proj65 x wv (i 0) m (i 2)

/-- X (Wqᵀ (Kᵀ V)), the state Kᵀ V first. -/
def stateFirst (x : SX.Idx → EReal) (wq wk : SQ.Idx → EReal) (wv : SV.Idx → EReal) : SX.Idx → EReal := fun i =>
  ∑ d : Fin 65, x (ix3 (i 0) (i 1) d) *
    ∑ h : Fin 64, wq (ix2 h d) * ∑ m : Fin 2048, proj64 x wk (i 0) m h * proj65 x wv (i 0) m (i 2)

/-- Every entry of an array is a real number. -/
def AllReal {s : Shape} (x : s.Idx → EReal) : Prop := ∀ i, ∃ r : ℝ, x i = (r : EReal)

/-- On real entries the two orders agree: associativity of the matrix product, entry by entry. -/
theorem scoreFirst_eq_stateFirst (x : SX.Idx → EReal) (wq wk : SQ.Idx → EReal) (wv : SV.Idx → EReal)
    (hx : AllReal x) (hq : AllReal wq) (hk : AllReal wk) (hv : AllReal wv) :
    scoreFirst x wq wk wv = stateFirst x wq wk wv := by
  choose X hX using hx
  choose Q hQ using hq
  choose K hK using hk
  choose V hV using hv
  funext i
  unfold scoreFirst stateFirst proj64 proj65
  simp only [hX, hQ, hK, hV, ← EReal.coe_mul, ← coe_sum]
  refine congrArg _ ?_
  exact (real_reassoc (D := 65) (H := 64) (N := 2048) (fun d => X (ix3 (i 0) (i 1) d)) (fun h d => Q (ix2 h d))
    (fun m h => ∑ d : Fin 65, X (ix3 (i 0) m d) * K (ix2 h d)) (fun m => ∑ d : Fin 65, X (ix3 (i 0) m d) * V (ix2 (i 2) d))).symm

end Cert.LinAttn

end
-- ==== Proof.KernelValue.lean ====
/-
  From blocks to the array: the kernel's result is the state-first form of its arguments.

  Grid point t stages batch element t of the activations (block (t, 0, 0) of extents [1, 2048, 65]) and the three
  weights whole, and writes back block (t, 0, 0) of the result. The stored block at (0, n, e) is the state-first sum
  over the loaded blocks (the payload read at an index), and the loaded blocks are the arguments read at batch t, so
  point t writes block t of `stateFirst` of the arguments. The 32 blocks tile the result: index (b, n, e) lies in
  block b. Hence the result array ends holding `stateFirst` of the argument arrays.
-/
import proofs.«180751_j16226386444902_1_alg».proof.Proof.Gen.KernelIdeal.Value
import proofs.«180751_j16226386444902_1_alg».proof.Proof.Payload
import proofs.«180751_j16226386444902_1_alg».proof.Proof.Spec
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.LinAttn

open Cert.KernelIdeal Cert.KernelIdeal.Gen Cert.KernelIdeal.Value

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the 32 grid points: the activations' and the result's blocks are (t, 0, 0), the
    weights' blocks are (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The state-first form of the argument arrays as the region finds them. -/
abbrev result (c : Dev nD) : S32x2048x65.Idx → EReal :=
  stateFirst (V m c main_arg0) (V m c main_arg1) (V m c main_arg2) (V m c main_arg3)

/-- The activations' block at point t is batch element t of the argument. -/
theorem xblk_apply (c : Dev nD) (t : Fin cfg0.N) (y : S1x2048x65.Idx) (k : S32x2048x65.Idx)
    (hk0 : (k 0).val = t.val) (hk1 : (k 1).val = (y 1).val) (hk2 : (k 2).val = (y 2).val) :
    (iblk m c 0 t : Vec Ideal S1x2048x65 .f32) y = (V m c main_arg0 : S32x2048x65.Idx → EReal) k := by
  obtain ⟨e0, e1, e2, -⟩ := idx_facts t
  have hy0 : (y 0).val < 1 := (y 0).isLt
  unfold iblk
  rw [View.read_apply]
  show V m c main_arg0 _ = V m c main_arg0 _
  congr 1
  funext a
  apply Fin.ext
  match a with
  | ⟨0, _⟩ => show win0_0.index t (0 : Fin 3) * 1 + 1 * (y 0).val = (k 0).val; omega
  | ⟨1, _⟩ => show win0_0.index t (1 : Fin 3) * 2048 + 1 * (y 1).val = (k 1).val; omega
  | ⟨2, _⟩ => show win0_0.index t (2 : Fin 3) * 65 + 1 * (y 2).val = (k 2).val; omega

/-- The query weights' block at every point is the whole argument. -/
theorem qblk_eq (c : Dev nD) (t : Fin cfg0.N) : (iblk m c 1 t : Vec Ideal S64x65 .f32) = V m c main_arg1 := by
  obtain ⟨-, -, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 64 + 1 * (y 0).val = (y 0).val; omega
  | ⟨1, _⟩ => show win0_1.index t (1 : Fin 2) * 65 + 1 * (y 1).val = (y 1).val; omega

/-- The key weights' block at every point is the whole argument. -/
theorem kblk_eq (c : Dev nD) (t : Fin cfg0.N) : (iblk m c 2 t : Vec Ideal S64x65 .f32) = V m c main_arg2 := by
  obtain ⟨-, -, -, -, -, e0, e1, -⟩ := idx_facts t
  funext y
  unfold iblk
  rw [View.read_apply]
  show V m c main_arg2 _ = V m c main_arg2 y
  congr 1
  funext a
  apply Fin.ext
  match a with
  | ⟨0, _⟩ => show win0_2.index t (0 : Fin 2) * 64 + 1 * (y 0).val = (y 0).val; omega
  | ⟨1, _⟩ => show win0_2.index t (1 : Fin 2) * 65 + 1 * (y 1).val = (y 1).val; omega

/-- The value weights' block at every point is the whole argument. -/
theorem vblk_eq (c : Dev nD) (t : Fin cfg0.N) : (iblk m c 3 t : Vec Ideal S65x65 .f32) = V m c main_arg3 := by
  obtain ⟨-, -, -, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 65 + 1 * (y 0).val = (y 0).val; omega
  | ⟨1, _⟩ => show win0_3.index t (1 : Fin 2) * 65 + 1 * (y 1).val = (y 1).val; omega

/-- The stored block over blocks that are batch element b of X and the weights whole, at an index y of the block, is
    the state-first form at the array index (b, y 1, y 2). -/
theorem block_value (X : SX.Idx → EReal) (Wq Wk : SQ.Idx → EReal) (Wv : SV.Idx → EReal) (b : Fin 32)
    (x0 : Vec Ideal S1x2048x65 .f32)
    (h0 : ∀ (n : Fin 2048) (d : Fin 65), x0 (ix3 (0 : Fin 1) n d) = X (ix3 b n d))
    (y : S1x2048x65.Idx) (i : SX.Idx) (hi0 : (i 0).val = b.val) (hi1 : (i 1).val = (y 1).val) (hi2 : (i 2).val = (y 2).val) :
    k0_pay1 (F := Ideal) x0 Wq Wk Wv y = stateFirst X Wq Wk Wv i := by
  obtain ⟨u, n, e, rfl⟩ : ∃ (u : Fin 1) (n : Fin 2048) (e : Fin 65), y = ix3 u n e := ⟨y 0, y 1, y 2, eq_ix3 y⟩
  obtain rfl : u = 0 := Subsingleton.elim _ _
  have ei0 : i 0 = b := Fin.ext hi0
  have ei1 : i 1 = n := Fin.ext hi1
  have ei2 : i 2 = e := Fin.ext hi2
  rw [pay_apply]
  unfold stateFirst proj64 proj65
  simp only [h0, ei0, ei1, ei2]

/-- What point t writes back is block t of `result`. -/
theorem flushed_eq (c : Dev nD) (t : Fin cfg0.N) :
    (dats m 0 c).flushed 4 t = ((cfg0.win 4).blk t).view.read (Elt Ideal) (result m c) := by
  obtain ⟨-, -, -, -, -, -, -, -, -, e0, e1, e2⟩ := idx_facts t
  rw [Value.flushed4]
  unfold out0_4
  rw [View.canon_unit_zero zero3]
  simp only [View.ld_unit_zero (S := S1x2048x65) zero3, View.ld_unit_zero (S := S64x65) zero2, View.ld_unit_zero (S := S65x65) zero2]
  rw [qblk_eq, kblk_eq, vblk_eq]
  funext j
  rw [View.read_apply]
  show k0_pay1 (F := Ideal) (iblk m c 0 t) (V m c main_arg1) (V m c main_arg2) (V m c main_arg3) j = _
  refine block_value (V m c main_arg0) (V m c main_arg1) (V m c main_arg2) (V m c main_arg3) ⟨t.val, N_0 ▸ t.isLt⟩
    (iblk m c 0 t) (fun n d => xblk_apply m c t _ _ rfl rfl rfl) j _ ?_ ?_ ?_
  · show win0_4.index t (0 : Fin 3) * 1 + 1 * (j 0).val = t.val
    have hj0 : (j 0).val < 1 := (j 0).isLt
    omega
  · show win0_4.index t (1 : Fin 3) * 2048 + 1 * (j 1).val = (j 1).val
    omega
  · show win0_4.index t (2 : Fin 3) * 65 + 1 * (j 2).val = (j 2).val
    omega

/-- An index of the result is in point t's block iff each coordinate is in the block's range on its axis. -/
theorem mem_blk (t : Fin cfg0.N) (i : S32x2048x65.Idx) :
    i ∈ ((cfg0.win 4).blk t).view.set ↔ ∀ a : Fin 3, win0_4.index t a * S1x2048x65.size a ≤ (i a).val ∧ (i a).val < win0_4.index t a * S1x2048x65.size a + S1x2048x65.size a := by
  show i ∈ ((View.whole main_v0).slice (win0_4.rect t)).set ↔ _
  rw [View.set_slice_whole, Rect.mem_set_unit]
  exact Iff.rfl

/-- The blocks tile the result: (b, n, e) lies in the block of point b. -/
theorem cover (i : S32x2048x65.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 65 := (i 2).isLt
  have hN : cfg0.N = 32 := N_0
  obtain ⟨t, ht⟩ : ∃ t : Fin cfg0.N, t.val = (i 0).val := ⟨⟨(i 0).val, by omega⟩, rfl⟩
  refine ⟨t, flush0_4 t, ?_⟩
  obtain ⟨-, -, -, -, -, -, -, -, -, e0, e1, e2⟩ := idx_facts t
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 65 ≤ (i 2).val ∧ (i 2).val < win0_4.index t (2 : Fin 3) * 65 + 65; omega

/-- The result array after the run is `result`. -/
theorem final (c : Dev nD) : (dats m 0 c).arrAt 4 cfg0.N = result m c :=
  (dats m 0 c).arrAt_eq_of_cover 4 (result m c) (fun t _ => flushed_eq m c t) cover

/-- The kernel's run, read: the result array at the state-first form of the arguments, the arguments unchanged. -/
theorem run : θ_run defs (onTc (τ := τ) (main (F := Ideal))) ⟨m, fun _ => 0, ρ⟩ fun r => ∀ c : Dev nD,
      r.2.mem ((c : Thread nD τ).loc main_v0)
          = stateFirst (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.LinAttn

end
-- ==== Proof.RefValue.lean ====
/-
  The reference, operation by operation, is the scores-first form.

  Its five dot_generals are the three projections Q, K, V of the activations, the batched scores Q Kᵀ (contracting
  the 64 hidden coordinates), and the batched product of the scores with V (contracting the 2048 rows). Read at an
  index each is the sum over its contracted coordinate; composing the operand indices of the stages gives exactly the
  coordinates (b, n, d), (b, m, d), (h, d), (e, d) the specification reads.
-/
import proofs.«180751_j16226386444902_1_alg».proof.Proof.Gen.ReferenceIdeal.Read
import proofs.«180751_j16226386444902_1_alg».proof.Proof.Spec

noncomputable section

open scoped BigOperators

namespace Cert.LinAttn

open Cert.ReferenceIdeal Cert.ReferenceIdeal.Read Idealize.ShloMosaic Idealize.ShloMosaic.ValueIdx

/-- The query row read by the score (n, m) of batch b is row n of batch b. -/
theorem qrow_idx (i : S32x2048x65.Idx) (m : Fin 2048) (h : Fin 64) (d : Fin 65) :
    lidx_main_v0 (lidx_main_v3 (lidx_main_v4 i m) h) d = ix3 (i 0) (i 1) d :=
  funext fun a => match a with | ⟨0, _⟩ => rfl | ⟨1, _⟩ => rfl | ⟨2, _⟩ => rfl

/-- The query weight read at hidden coordinate h. -/
theorem qwt_idx (i : S32x2048x65.Idx) (m : Fin 2048) (h : Fin 64) (d : Fin 65) :
    ridx_main_v0 (lidx_main_v3 (lidx_main_v4 i m) h) d = ix2 h d :=
  funext fun a => match a with | ⟨0, _⟩ => rfl | ⟨1, _⟩ => rfl

/-- The key row read by the score (n, m) of batch b is row m of batch b. -/
theorem krow_idx (i : S32x2048x65.Idx) (m : Fin 2048) (h : Fin 64) (d : Fin 65) :
    lidx_main_v1 (ridx_main_v3 (lidx_main_v4 i m) h) d = ix3 (i 0) m d :=
  funext fun a => match a with | ⟨0, _⟩ => rfl | ⟨1, _⟩ => rfl | ⟨2, _⟩ => rfl

/-- The key weight read at hidden coordinate h. -/
theorem kwt_idx (i : S32x2048x65.Idx) (m : Fin 2048) (h : Fin 64) (d : Fin 65) :
    ridx_main_v1 (ridx_main_v3 (lidx_main_v4 i m) h) d = ix2 h d :=
  funext fun a => match a with | ⟨0, _⟩ => rfl | ⟨1, _⟩ => rfl

/-- The value row the contraction over m reads is row m of batch b. -/
theorem vrow_idx (i : S32x2048x65.Idx) (m : Fin 2048) (d : Fin 65) :
    lidx_main_v2 (ridx_main_v4 i m) d = ix3 (i 0) m d :=
  funext fun a => match a with | ⟨0, _⟩ => rfl | ⟨1, _⟩ => rfl | ⟨2, _⟩ => rfl

/-- The value weight read at the output coordinate e. -/
theorem vwt_idx (i : S32x2048x65.Idx) (m : Fin 2048) (d : Fin 65) :
    ridx_main_v2 (ridx_main_v4 i m) d = ix2 (i 2) d :=
  funext fun a => match a with | ⟨0, _⟩ => rfl | ⟨1, _⟩ => rfl

/-- The reference's last stage, as a function of the four arguments, is `scoreFirst`. -/
theorem ref_eq_scoreFirst (x0 : SX.Idx → EReal) (x1 x2 : SQ.Idx → EReal) (x3 : SV.Idx → EReal) :
    val_main_v4 (F := Ideal) x0 x1 x2 x3 = scoreFirst x0 x1 x2 x3 := by
  funext i
  rw [val_main_v4_apply]
  simp only [val_main_v3_apply, val_main_v2_apply, val_main_v0_apply, val_main_v1_apply]
  unfold scoreFirst proj64 proj65
  simp only [qrow_idx, qwt_idx, krow_idx, kwt_idx, vrow_idx, vwt_idx]
  rfl

end Cert.LinAttn

end
-- ==== Proof.Finite.lean ====
/-
  The printed precondition read back. It compares, entry by entry, the absolute value of each of the four
  argument arrays with +∞ (the f32 word 0x7F800000), reduces each comparison by "and" over every axis, and
  joins the four results by "and". On the extended reals |x| < ⊤ holds exactly when x is a real number, so
  the precondition being 1 says that every entry of the four arrays is a real number.
-/
import proofs.«180751_j16226386444902_1_alg».proof.Proof.Spec
import proofs.«180751_j16226386444902_1_alg».proof.Proof.Gen.Pre_finite_inputs
import Idealize.ShloMosaic.Lib.ReduceAll
import Idealize.ShloMosaic.Lib.ValueIdx
import Idealize.ShloMosaic.PureOps.Ideal
import Mathlib.Data.EReal.Basic

noncomputable section

namespace Cert.LinAttn

open Idealize.ShloMosaic

/-- The f32 word 0x7F800000 denotes +∞. -/
theorem ofBits_posInf : Ideal.ofBits .f32 0x7F800000#32 = (⊤ : EReal) := by
  simp [Ideal.ofBits, Ideal.ieee]

/-- An extended real whose absolute value max x (-x) lies below ⊤ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The ordered "less than" of two extended reals is 1 exactly when the first lies below the second. -/
theorem cmpf_olt_eq_one {φ : FTy} (a b : Ideal φ) : FloatOps.cmpf (F := Ideal) .olt a b = 1#1 ↔ a < b := by
  show BitVec.ofBool (decide (a < b)) = 1#1 ↔ a < b
  by_cases hab : a < b <;> simp [hab]

/-- The rank-0 shape has one index. -/
instance subsingleton_S_Idx : Subsingleton Cert.Pre_finite_inputs.S_.Idx :=
  ⟨fun a b => funext fun d => d.elim0⟩

/-- One array: if the "and" over all axes of |x| < +∞ is 1, every entry of x is a real number. -/
theorem allReal_of_reduce {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] hb (constant (F := Ideal) Cert.Pre_finite_inputs.S_ .f32 0x7F800000#32)))
          init hr hu j = 1#1) :
    AllReal x := by
  intro i
  have hi := Host.reduce_andi_all _ init hr hu j e i
  apply exists_real_of_abs_lt_top
  simp only [cmpf, Host.absf, broadcastInDim, constant, Ideal.hostAbsf_def, Ideal.ofBits_def, ofBits_posInf] at hi
  exact (cmpf_olt_eq_one _ _).1 hi

/-- If the printed precondition evaluates to all ones at the ideal instance, every entry of the four arrays is a real number. -/
theorem allReal_of_pre (x0 : FVec Ideal Cert.Pre_finite_inputs.S32x2048x65 .f32) (x1 x2 : FVec Ideal Cert.Pre_finite_inputs.S64x65 .f32) (x3 : FVec Ideal Cert.Pre_finite_inputs.S65x65 .f32)
    (h : Cert.Pre_finite_inputs.fn (F := Ideal) x0 x1 x2 x3 = fun _ => 1#1) :
    AllReal x0 ∧ AllReal x1 ∧ AllReal x2 ∧ AllReal x3 := by
  have e := congrFun h ValueIdx.ix0
  dsimp only [Cert.Pre_finite_inputs.fn, Cert.Pre_finite_inputs.fn_part1, andi] at e
  obtain ⟨e012, e3⟩ := IntOp.andi_eq_one.1 e
  obtain ⟨e01, e2⟩ := IntOp.andi_eq_one.1 e012
  obtain ⟨e0, e1⟩ := IntOp.andi_eq_one.1 e01
  exact ⟨allReal_of_reduce x0 _ _ _ _ _ e0, allReal_of_reduce x1 _ _ _ _ _ e1,
    allReal_of_reduce x2 _ _ _ _ _ e2, allReal_of_reduce x3 _ _ _ _ _ e3⟩

end Cert.LinAttn

end
-- ==== Proof.lean ====
/-
  Linear (non-softmax) attention, out = (Q Kᵀ) V with Q = X Wqᵀ, K = X Wkᵀ, V = X Wvᵀ, over f32[32, 2048, 65].

  The kernel never forms the 2048×2048 scores: per batch element it computes the 64×65 state Kᵀ V, folds the query
  projection into the 65×65 matrix Wqᵀ (Kᵀ V), and multiplies the activations by it. The reference forms the scores
  first. On the extended reals a change of float format is the identity and every matrix product is the exact sum over
  its contracted coordinate, so the kernel's result array is the state-first sum of its arguments (the blocks of the 32
  grid points tile the result) and the reference's is the scores-first sum; where every input entry is finite — the
  precondition — all entries are real numbers and the two sums agree by distributivity and exchange of the order of
  summation (associativity of the matrix product). The idealization rewrote no operation, so that conjunct is trivial;
  the three frames are the generated ones, the reference's being its run with the result dropped.
-/
import proofs.«180751_j16226386444902_1_alg».proof.Defs
import proofs.«180751_j16226386444902_1_alg».proof.Proof.Gen.Kernel
import proofs.«180751_j16226386444902_1_alg».proof.Proof.Gen.Kernel.Skeleton
import proofs.«180751_j16226386444902_1_alg».proof.Proof.Gen.Kernel.Launch
import proofs.«180751_j16226386444902_1_alg».proof.Proof.Gen.Kernel.Points
import proofs.«180751_j16226386444902_1_alg».proof.Proof.Gen.Kernel.Frame
import proofs.«180751_j16226386444902_1_alg».proof.Proof.Gen.KernelIdeal
import proofs.«180751_j16226386444902_1_alg».proof.Proof.Gen.KernelIdeal.Skeleton
import proofs.«180751_j16226386444902_1_alg».proof.Proof.Gen.KernelIdeal.Launch
import proofs.«180751_j16226386444902_1_alg».proof.Proof.Gen.KernelIdeal.Points
import proofs.«180751_j16226386444902_1_alg».proof.Proof.Gen.KernelIdeal.Frame
import proofs.«180751_j16226386444902_1_alg».proof.Proof.Gen.ReferenceIdeal
import proofs.«180751_j16226386444902_1_alg».proof.Proof.Gen.Pre_finite_inputs
import proofs.«180751_j16226386444902_1_alg».proof.Proof.Gen.KernelIdeal.Value
import proofs.«180751_j16226386444902_1_alg».proof.Proof.Gen.ReferenceIdeal.Run
import proofs.«180751_j16226386444902_1_alg».proof.Proof.Gen.ReferenceIdeal.Read
import proofs.«180751_j16226386444902_1_alg».proof.Proof.KernelValue
import proofs.«180751_j16226386444902_1_alg».proof.Proof.RefValue
import proofs.«180751_j16226386444902_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the state-first sum of the (agreeing, finite) arguments: the kernel by its blocks, the
    reference because its scores-first sum equals it on real entries. -/
theorem algebraic : Cert.algebraic_KernelIdeal_ReferenceIdeal := by
  intro m ρ m' ρ' hpre hagree
  refine ⟨_, Cert.LinAttn.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v4_eq, Cert.LinAttn.ref_eq_scoreFirst]
  obtain ⟨h0, h1, h2, h3⟩ := Cert.LinAttn.allReal_of_pre _ _ _ _ (hpre c)
  exact Cert.LinAttn.scoreFirst_eq_stateFirst _ _ _ _ h0 h1 h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
